-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16x512x128 : Shape := ⟨4, ![64, 16, 512, 128]⟩
abbrev S256x512 : Shape := ⟨2, ![256, 512]⟩
abbrev S256 : Shape := ⟨1, ![256]⟩
abbrev S1024x256 : Shape := ⟨2, ![1024, 256]⟩
abbrev S1024 : Shape := ⟨1, ![1024]⟩
abbrev S32x256 : Shape := ⟨2, ![32, 256]⟩
abbrev S32 : Shape := ⟨1, ![32]⟩
abbrev S_ : Shape := ⟨0, ![]⟩

class Facts : Prop where
  bcast_S_S64x16x512x128 : S_.BroadcastsInDim S64x16x512x128 (![] : Fin 0 → Fin S64x16x512x128.rank)
  reducesTo_S64x16x512x128_S_d0_1_2_3 : S64x16x512x128.ReducesTo [0, 1, 2, 3] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S32x256 .f32) (main_arg8 : FVec F S32 .f32) (main_v33 : IVec S_ 1) : IVec S_ 1 :=
  let main_v34 : FVec F S32x256 .f32 := Host.absf main_arg7
  let main_cst_12 : FVec F S_ .f32 := constant S_ .f32 0x7F800000#32
  let main_v35 : FVec F S32x256 .f32 := broadcastInDim S32x256 ![] bcast_S_S32x256 main_cst_12
  let main_v36 : IVec S32x256 1 := cmpf .olt main_v34 main_v35
  let main_c_13 : IVec S_ 1 := constantI S_ 1 1#1
  let main_v37 : IVec S_ 1 := (fun x v => Host.reduce IntOp.andi x v reducesTo_S32x256_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg4 : FVec F S1024x256 .f32) (main_arg5 : FVec F S1024 .f32) (main_arg6 : FVec F S1024 .f32) (main_arg7 : FVec F S32x256 .f32) (main_arg8 : FVec F S32 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S1024x256 .f32 := Host.absf main_arg4
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S64x16x512x128 .f32) (main_arg1 : FVec F S256x512 .f32) (main_arg2 : FVec F S256 .f32) (main_arg3 : FVec F S1024x256 .f32) (main_arg4 : FVec F S1024x256 .f32) (main_arg5 : FVec F S1024 .f32) (main_arg6 : FVec F S1024 .f32) (main_arg7 : FVec F S32x256 .f32) (main_arg8 : FVec F S32 .f32) : IVec S_ 1 :=
  let main_v0 : FVec F S64x16x512x128 .f32 := Host.absf main_arg0
  let main_cst : FVec F S_ .f32 := constant S_ .f32 0x7F800000#32
  let main_v1 : FVec F S64x16x512x128 .f32 := broadcastInDim S64x16x512x128 ![] bcast_S_S64x16x512x128 main_cst
  let main_v2 : IVec S64x16x512x128 1 := cmpf .olt main_v0 main_v1
  let main_c : IVec S_ 1 := constantI S_ 1 1#1
  let main_v3 : IVec S_ 1 := (fun x v => Host.reduce IntOp.andi x v reducesTo_S64x16x512x128_S_d0_1_2_3 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_arg5 main_arg6 main_arg7 main_arg8 main_v13 main_v16
-- ==== Kernel.lean ====
abbrev S64x16x512x128 : Shape := ⟨4, ![64, 16, 512, 128]⟩
abbrev S256x512 : Shape := ⟨2, ![256, 512]⟩
abbrev S256 : Shape := ⟨1, ![256]⟩
abbrev S1024x256 : Shape := ⟨2, ![1024, 256]⟩
abbrev S1024 : Shape := ⟨1, ![1024]⟩
abbrev S32x256 : Shape := ⟨2, ![32, 256]⟩
abbrev S32 : Shape := ⟨1, ![32]⟩
abbrev S64x1x512x1 : Shape := ⟨4, ![64, 1, 512, 1]⟩
abbrev S64x512 : Shape := ⟨2, ![64, 512]⟩
abbrev S512x256 : Shape := ⟨2, ![512, 256]⟩
abbrev S256x1024 : Shape := ⟨2, ![256, 1024]⟩
abbrev S256x32 : Shape := ⟨2, ![256, 32]⟩
abbrev S1x1024 : Shape := ⟨2, ![1, 1024]⟩
abbrev S1x256 : Shape := ⟨2, ![1, 256]⟩
abbrev S1x32 : Shape := ⟨2, ![1, 32]⟩
abbrev S64x32 : Shape := ⟨2, ![64, 32]⟩
abbrev S64x256 : Shape := ⟨2, ![64, 256]⟩
abbrev S64x1024 : Shape := ⟨2, ![64, 1024]⟩
abbrev S64 : Shape := ⟨1, ![64]⟩
abbrev S64x1 : Shape := ⟨2, ![64, 1]⟩

abbrev nBuf : Space → Nat
  | .hbm => 19
  | .vmem => 8
  | .smem => 0
  | _ => 0

abbrev bufTy : (tb : Table) → Fin (tcTables nBuf tb) → BufTy
  | .hbm, ⟨0, _⟩ => ⟨S64x16x512x128, .f32⟩
  | .hbm, ⟨1, _⟩ => ⟨S256x512, .f32⟩
  | .hbm, ⟨2, _⟩ => ⟨S256, .f32⟩
  | .hbm, ⟨3, _⟩ => ⟨S1024x256, .f32⟩
  | .hbm, ⟨4, _⟩ => ⟨S1024x256, .f32⟩
  | .hbm, ⟨5, _⟩ => ⟨S1024, .f32⟩
  | .hbm, ⟨6, _⟩ => ⟨S1024, .f32⟩
  | .hbm, ⟨7, _⟩ => ⟨S32x256, .f32⟩
  | .hbm, ⟨8, _⟩ => ⟨S32, .f32⟩
  | .hbm, ⟨9, _⟩ => ⟨S64x1x512x1, .f32⟩
  | .hbm, ⟨10, _⟩ => ⟨S64x512, .f32⟩
  | .hbm, ⟨11, _⟩ => ⟨S512x256, .f32⟩
  | .hbm, ⟨12, _⟩ => ⟨S256x1024, .f32⟩
  | .hbm, ⟨13, _⟩ => ⟨S256x32, .f32⟩
  | .hbm, ⟨14, _⟩ => ⟨S1024, .f32⟩
  | .hbm, ⟨15, _⟩ => ⟨S1x1024, .f32⟩
  | .hbm, ⟨16, _⟩ => ⟨S1x256, .f32⟩
  | .hbm, ⟨17, _⟩ => ⟨S1x32, .f32⟩
  | .hbm, ⟨18, _⟩ => ⟨S64x32, .f32⟩
  | .local _ .vmem, ⟨0, _⟩ => ⟨S64x512, .f32⟩
  | .local _ .vmem, ⟨1, _⟩ => ⟨S512x256, .f32⟩
  | .local _ .vmem, ⟨2, _⟩ => ⟨S1x256, .f32⟩
  | .local _ .vmem, ⟨3, _⟩ => ⟨S256x1024, .f32⟩
  | .local _ .vmem, ⟨4, _⟩ => ⟨S1x1024, .f32⟩
  | .local _ .vmem, ⟨5, _⟩ => ⟨S256x32, .f32⟩
  | .local _ .vmem, ⟨6, _⟩ => ⟨S1x32, .f32⟩
  | .local _ .vmem, ⟨7, _⟩ => ⟨S64x32, .f32⟩
  | _, _ => ⟨S64x16x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  slices_S64x16x512x128_S64x1x512x1_0_15_0_127 : S64x16x512x128.Slices ![0, 15, 0, 127] S64x1x512x1
  shapeCasts_S64x1x512x1_S64x512 : S64x1x512x1.ShapeCasts S64x512
  transposes_S256x512_S512x256_1_0 : S256x512.Transposes [1, 0] S512x256
  transposes_S1024x256_S256x1024_1_0 : S1024x256.Transposes [1, 0] S256x1024
  transposes_S32x256_S256x32_1_0 : S32x256.Transposes [1, 0] S256x32
  shapeCasts_S1024_S1x1024 : S1024.ShapeCasts S1x1024
  shapeCasts_S256_S1x256 : S256.ShapeCasts S1x256
  shapeCasts_S32_S1x32 : S32.ShapeCasts S1x32
  inb_S64x512_S64x512_0_0 : ∀ a, (![0, 0] : Fin 2 → Nat) a + S64x512.size a ≤ S64x512.size a
  h_S64x512 : 0 < S64x512.numel
  shapeCasts_S64x512_S64x512 : S64x512.ShapeCasts S64x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  slices_S64x1024_o0_0_S64x256 : S64x1024.Slices ![0, 0] S64x256
  slices_S64x1024_o0_512_S64x256 : S64x1024.Slices ![0, 512] S64x256
  slices_S64x1024_o0_768_S64x256 : S64x1024.Slices ![0, 768] S64x256
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  reduces_S64x32_S64 : S64x32.Reduces [1] S64
  shapeCasts_S64_S64x1 : S64.ShapeCasts S64x1
  broadcasts_S64x1_S64x32 : S64x1.Broadcasts S64x32
  inb_S64x32_S64x32_0_0 : ∀ a, (![0, 0] : Fin 2 → Nat) a + S64x32.size a ≤ S64x32.size a
  h_S64x32 : 0 < S64x32.numel
  dot_S64x512_S512x256_S64x256_1_0_0_1_n_n_wf : DotDims.WF S64x512 S512x256 S64x256 [1] [0] [0] [1] [] []
  dot_S64x256_S256x1024_S64x1024_1_0_0_1_n_n_wf : DotDims.WF S64x256 S256x1024 S64x1024 [1] [0] [0] [1] [] []
  dot_S64x256_S256x32_S64x32_1_0_0_1_n_n_wf : DotDims.WF S64x256 S256x32 S64x32 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S64x512.size a
  hwx0_0 : ∀ i : grid0.Coords, EltTy.bits .f32 = 32 ∨ (Rect.block (s := S64x512) S64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .f32 = 32 ∨ (Rect.block (s := S256x1024) S256x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x32.size a ≤ S256x32.size a
  hwx0_5 : ∀ i : grid0.Coords, EltTy.bits .f32 = 32 ∨ (Rect.block (s := S256x32) S256x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x32.size a ≤ S64x32.size a
  hwx0_7 : ∀ i : grid0.Coords, EltTy.bits .f32 = 32 ∨ (Rect.block (s := S64x32) S64x32.size (cc0_transform_7 i) (hinb0_7 i)).WholeWords (EltTy.packing .f32)

variable [Facts₀]

def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf
def dot_S64x256_S256x1024_S64x1024_1_0_0_1_n_n : DotDims S64x256 S256x1024 S64x1024 where
  lhsContracting := [1]
  rhsContracting := [0]
  lhsNonContracting := [0]
  rhsNonContracting := [1]
  lhsBatch := []
  rhsBatch := []
  wf := dot_S64x256_S256x1024_S64x1024_1_0_0_1_n_n_wf
def dot_S64x256_S256x32_S64x32_1_0_0_1_n_n : DotDims S64x256 S256x32 S64x32 where
  lhsContracting := [1]
  rhsContracting := [0]
  lhsNonContracting := [0]
  rhsNonContracting := [1]
  lhsBatch := []
  rhsBatch := []
  wf := dot_S64x256_S256x32_S64x32_1_0_0_1_n_n_wf

abbrev win0_0 : Pipeline.Window sig grid0 :=
  Pipeline.Window.ofSpec (Memref.whole main_v1) S64x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S64x32.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x16x512x128 : Shape := ⟨4, ![64, 16, 512, 128]⟩
abbrev S256x512 : Shape := ⟨2, ![256, 512]⟩
abbrev S256 : Shape := ⟨1, ![256]⟩
abbrev S1024x256 : Shape := ⟨2, ![1024, 256]⟩
abbrev S1024 : Shape := ⟨1, ![1024]⟩
abbrev S32x256 : Shape := ⟨2, ![32, 256]⟩
abbrev S32 : Shape := ⟨1, ![32]⟩
abbrev S64x16x128x512 : Shape := ⟨4, ![64, 16, 128, 512]⟩
abbrev S131072x512 : Shape := ⟨2, ![131072, 512]⟩
abbrev S512x256 : Shape := ⟨2, ![512, 256]⟩
abbrev S131072x256 : Shape := ⟨2, ![131072, 256]⟩
abbrev S1x256 : Shape := ⟨2, ![1, 256]⟩
abbrev S_ : Shape := ⟨0, ![]⟩
abbrev S256x1024 : Shape := ⟨2, ![256, 1024]⟩
abbrev S131072x1024 : Shape := ⟨2, ![131072, 1024]⟩
abbrev S1x1024 : Shape := ⟨2, ![1, 1024]⟩
abbrev S256x32 : Shape := ⟨2, ![256, 32]⟩
abbrev S131072x32 : Shape := ⟨2, ![131072, 32]⟩
abbrev S1x32 : Shape := ⟨2, ![1, 32]⟩
abbrev S131072 : Shape := ⟨1, ![131072]⟩
abbrev S131072x1 : Shape := ⟨2, ![131072, 1]⟩
abbrev S64x2048x32 : Shape := ⟨3, ![64, 2048, 32]⟩
abbrev S64x1x32 : Shape := ⟨3, ![64, 1, 32]⟩
abbrev S64x32 : Shape := ⟨2, ![64, 32]⟩

abbrev nBuf : Space → Nat
  | .hbm => 74
  | .vmem => 0
  | .smem => 0
  | _ => 0

abbrev bufTy : (tb : Table) → Fin (tcTables nBuf tb) → BufTy
  | .hbm, ⟨0, _⟩ => ⟨S64x16x512x128, .f32⟩
  | .hbm, ⟨1, _⟩ => ⟨S256x512, .f32⟩
  | .hbm, ⟨2, _⟩ => ⟨S256, .f32⟩
  | .hbm, ⟨3, _⟩ => ⟨S1024x256, .f32⟩
  | .hbm, ⟨4, _⟩ => ⟨S1024x256, .f32⟩
  | .hbm, ⟨5, _⟩ => ⟨S1024, .f32⟩
  | .hbm, ⟨6, _⟩ => ⟨S1024, .f32⟩
  | .hbm, ⟨7, _⟩ => ⟨S32x256, .f32⟩
  | .hbm, ⟨8, _⟩ => ⟨S32, .f32⟩
  | .hbm, ⟨9, _⟩ => ⟨S64x16x128x512, .f32⟩
  | .hbm, ⟨10, _⟩ => ⟨S131072x512, .f32⟩
  | .hbm, ⟨11, _⟩ => ⟨S512x256, .f32⟩
  | .hbm, ⟨12, _⟩ => ⟨S131072x256, .f32⟩
  | .hbm, ⟨13, _⟩ => ⟨S1x256, .f32⟩
  | .hbm, ⟨14, _⟩ => ⟨S131072x256, .f32⟩
  | .hbm, ⟨15, _⟩ => ⟨S131072x256, .f32⟩
  | .hbm, ⟨16, _⟩ => ⟨S_, .f32⟩
  | .hbm, ⟨17, _⟩ => ⟨S131072x256, .f32⟩
  | .hbm, ⟨18, _⟩ => ⟨S131072x256, .f32⟩
  | .hbm, ⟨19, _⟩ => ⟨S256x1024, .f32⟩
  | .hbm, ⟨20, _⟩ => ⟨S131072x1024, .f32⟩
  | .hbm, ⟨21, _⟩ => ⟨S1024, .f32⟩
  | .hbm, ⟨22, _⟩ => ⟨S1x1024, .f32⟩
  | .hbm, ⟨23, _⟩ => ⟨S131072x1024, .f32⟩
  | .hbm, ⟨24, _⟩ => ⟨S131072x1024, .f32⟩
  | .hbm, ⟨25, _⟩ => ⟨S131072x256, .f32⟩
  | .hbm, ⟨26, _⟩ => ⟨S131072x256, .f32⟩
  | .hbm, ⟨27, _⟩ => ⟨S131072x256, .f32⟩
  | .hbm, ⟨28, _⟩ => ⟨S131072x256, .f32⟩
  | .hbm, ⟨29, _⟩ => ⟨S131072x256, .f32⟩
  | .hbm, ⟨30, _⟩ => ⟨S131072x256, .f32⟩
  | .hbm, ⟨31, _⟩ => ⟨S_, .f32⟩
  | .hbm, ⟨32, _⟩ => ⟨S131072x256, .f32⟩
  | .hbm, ⟨33, _⟩ => ⟨S131072x256, .f32⟩
  | .hbm, ⟨34, _⟩ => ⟨S_, .f32⟩
  | .hbm, ⟨35, _⟩ => ⟨S131072x256, .f32⟩
  | .hbm, ⟨36, _⟩ => ⟨S131072x256, .f32⟩
  | .hbm, ⟨37, _⟩ => ⟨S131072x256, .f32⟩
  | .hbm, ⟨38, _⟩ => ⟨S131072x256, .f32⟩
  | .hbm, ⟨39, _⟩ => ⟨S131072x256, .f32⟩
  | .hbm, ⟨40, _⟩ => ⟨S131072x256, .f32⟩
  | .hbm, ⟨41, _⟩ => ⟨S_, .f32⟩
  | .hbm, ⟨42, _⟩ => ⟨S131072x256, .f32⟩
  | .hbm, ⟨43, _⟩ => ⟨S131072x256, .f32⟩
  | .hbm, ⟨44, _⟩ => ⟨S_, .f32⟩
  | .hbm, ⟨45, _⟩ => ⟨S131072x256, .f32⟩
  | .hbm, ⟨46, _⟩ => ⟨S131072x256, .f32⟩
  | .hbm, ⟨47, _⟩ => ⟨S131072x256, .f32⟩
  | .hbm, ⟨48, _⟩ => ⟨S131072x256, .f32⟩
  | .hbm, ⟨49, _⟩ => ⟨S_, .f32⟩
  | .hbm, ⟨50, _⟩ => ⟨S131072x256, .f32⟩
  | .hbm, ⟨51, _⟩ => ⟨S131072x256, .f32⟩
  | .hbm, ⟨52, _⟩ => ⟨S256x32, .f32⟩
  | .hbm, ⟨53, _⟩ => ⟨S131072x32, .f32⟩
  | .hbm, ⟨54, _⟩ => ⟨S1x32, .f32⟩
  | .hbm, ⟨55, _⟩ => ⟨S131072x32, .f32⟩
  | .hbm, ⟨56, _⟩ => ⟨S131072x32, .f32⟩
  | .hbm, ⟨57, _⟩ => ⟨S_, .f32⟩
  | .hbm, ⟨58, _⟩ => ⟨S131072, .f32⟩
  | .hbm, ⟨59, _⟩ => ⟨S_, .f32⟩
  | .hbm, ⟨60, _⟩ => ⟨S131072, .f32⟩
  | .hbm, ⟨61, _⟩ => ⟨S131072, .f32⟩
  | .hbm, ⟨62, _⟩ => ⟨S131072x1, .f32⟩
  | .hbm, ⟨63, _⟩ => ⟨S131072x32, .f32⟩
  | .hbm, ⟨64, _⟩ => ⟨S131072x32, .f32⟩
  | .hbm, ⟨65, _⟩ => ⟨S131072x32, .f32⟩
  | .hbm, ⟨66, _⟩ => ⟨S_, .f32⟩
  | .hbm, ⟨67, _⟩ => ⟨S131072, .f32⟩
  | .hbm, ⟨68, _⟩ => ⟨S131072x1, .f32⟩
  | .hbm, ⟨69, _⟩ => ⟨S131072x32, .f32⟩
  | .hbm, ⟨70, _⟩ => ⟨S131072x32, .f32⟩
  | .hbm, ⟨71, _⟩ => ⟨S64x2048x32, .f32⟩
  | .hbm, ⟨72, _⟩ => ⟨S64x1x32, .f32⟩
  | .hbm, ⟨73, _⟩ => ⟨S64x32, .f32⟩
  | _, _ => ⟨S64x16x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_cst : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call1_cst : Ref sig .tc := ⟨.hbm, 49, rfl⟩
abbrev main_call1_v0 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_3 : Ref sig .tc := ⟨.hbm, 57, rfl⟩
abbrev main_v40 : Ref sig .tc := ⟨.hbm, 58, rfl⟩
abbrev main_cst_4 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_5 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  transposes_S64x16x512x128_S64x16x128x512_0_1_3_2 : S64x16x512x128.Transposes [0, 1, 3, 2] S64x16x128x512
  shapeCasts_S64x16x128x512_S131072x512 : S64x16x128x512.ShapeCasts S131072x512
  transposes_S256x512_S512x256_1_0 : S256x512.Transposes [1, 0] S512x256
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  transposes_S1024x256_S256x1024_1_0 : S1024x256.Transposes [1, 0] S256x1024
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  slices_S131072x1024_S131072x256_0_0 : S131072x1024.Slices ![0, 0] S131072x256
  slices_S131072x1024_S131072x256_0_256 : S131072x1024.Slices ![0, 256] S131072x256
  slices_S131072x1024_S131072x256_0_512 : S131072x1024.Slices ![0, 512] S131072x256
  slices_S131072x1024_S131072x256_0_768 : S131072x1024.Slices ![0, 768] S131072x256
  transposes_S32x256_S256x32_1_0 : S32x256.Transposes [1, 0] S256x32
  bcast_S32_S1x32_1 : S32.BroadcastsInDim S1x32 (![1] : Fin 1 → Fin S1x32.rank)
  bcast_S1x32_S131072x32_0_1 : S1x32.BroadcastsInDim S131072x32 (![0, 1] : Fin 2 → Fin S131072x32.rank)
  reducesTo_S131072x32_S131072_d1 : S131072x32.ReducesTo [1] S131072
  h_S_ : 0 < S_.numel
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x32_0_1 : S131072x1.BroadcastsInDim S131072x32 (![0, 1] : Fin 2 → Fin S131072x32.rank)
  shapeCasts_S131072x32_S64x2048x32 : S131072x32.ShapeCasts S64x2048x32
  slices_S64x2048x32_S64x1x32_0_2047_0 : S64x2048x32.Slices ![0, 2047, 0] S64x1x32
  shapeCasts_S64x1x32_S64x32 : S64x1x32.ShapeCasts S64x32
  dot_S131072x512_S512x256_S131072x256_1_0_0_1_n_n_wf : DotDims.WF S131072x512 S512x256 S131072x256 [1] [0] [0] [1] [] []
  dot_S131072x256_S256x1024_S131072x1024_1_0_0_1_n_n_wf : DotDims.WF S131072x256 S256x1024 S131072x1024 [1] [0] [0] [1] [] []
  dot_S131072x256_S256x32_S131072x32_1_0_0_1_n_n_wf : DotDims.WF S131072x256 S256x32 S131072x32 [1] [0] [0] [1] [] []

variable [Facts₀]

def dot_S131072x512_S512x256_S131072x256_1_0_0_1_n_n : DotDims S131072x512 S512x256 S131072x256 where
  lhsContracting := [1]
  rhsContracting := [0]
  lhsNonContracting := [0]
  rhsNonContracting := [1]
  lhsBatch := []
  rhsBatch := []
  wf := dot_S131072x512_S512x256_S131072x256_1_0_0_1_n_n_wf
def dot_S131072x256_S256x1024_S131072x1024_1_0_0_1_n_n : DotDims S131072x256 S256x1024 S131072x1024 where
  lhsContracting := [1]
  rhsContracting := [0]
  lhsNonContracting := [0]
  rhsNonContracting := [1]
  lhsBatch := []
  rhsBatch := []
  wf := dot_S131072x256_S256x1024_S131072x1024_1_0_0_1_n_n_wf
def dot_S131072x256_S256x32_S131072x32_1_0_0_1_n_n : DotDims S131072x256 S256x32 S131072x32 where
  lhsContracting := [1]
  rhsContracting := [0]
  lhsNonContracting := [0]
  rhsNonContracting := [1]
  lhsBatch := []
  rhsBatch := []
  wf := dot_S131072x256_S256x32_S131072x32_1_0_0_1_n_n_wf

class Facts : Prop extends Facts₀ where

variable [Facts]
-- ==== Proof.RowSpec.lean ====
/-
  The mathematics both programs compute, as ONE function of the argument arrays.

  Every one of the 64 result rows comes from one row of 512 inputs, `x[p, 15, :, 127]`, pushed through
    * a dense layer with a rectifier:            h1 j  = max (Σ_k r k · W1[j, k] + b1 j) 0,
    * one recurrent step from a zero state, so the recurrent weights never enter and the cell state is
      σ(i) · tanh(g), the output σ(o) · tanh(cell), again rectified:
                                                 gate n = Σ_j h1 j · W_ih[n, j] + (b_ih n + b_hh n),
    * a dense layer to 32 classes:               logit q = Σ_j h j · W3[q, j] + b3 q,
    * a softmax over the 32 classes, shifted by the row's maximum (taken from −∞).
  The kernel does exactly this on the 64 rows it is handed; the reference does it on all 131072 rows
  `x[p, m, :, b]` and keeps row `p · 2048 + 2047`, which is `m = 15, b = 127`.  All of it is exact on the
  extended reals, operation for operation, so nothing here asks the inputs to be finite.
-/
import Idealize.ShloMosaic.PureOps.Ideal
import Idealize.ShloMosaic.PureOps.Ideal.Laws
import Idealize.ShloMosaic.Lib.ValueIdx
import Idealize.ShloMosaic.Lib.IdealHost

noncomputable section

namespace Cert.RowSpec

open Idealize.ShloMosaic Idealize.ShloMosaic.ValueIdx

/-- The f32 word of zero, as both programs print it (it is the extended real `0`). -/
abbrev zero32 : EReal := Ideal.ofBits .f32 0x00000000#32
/-- The f32 word of minus infinity, the value a row's maximum starts from. -/
abbrev negInf32 : EReal := Ideal.ofBits .f32 0xFF800000#32

/-- The first dense layer with its rectifier, for one input row `r`: `max (Σ_k r k · w1 k j + b1 j) 0`. -/
def hidden (r : Fin 512 → EReal) (w1 : Fin 512 → Fin 256 → EReal) (b1 : Fin 256 → EReal) (j : Fin 256) : EReal :=
  max ((∑ k : Fin 512, r k * w1 k j) + b1 j) zero32

/-- The 1024 gate pre-activations of the recurrent step from a zero state: `Σ_j h j · wih j n + bs n`. -/
def gates (h : Fin 256 → EReal) (wih : Fin 256 → Fin 1024 → EReal) (bs : Fin 1024 → EReal) (n : Fin 1024) : EReal :=
  (∑ j : Fin 256, h j * wih j n) + bs n

/-- Column `o + j` of the gates: entry `j` of the block of 256 that starts at column `o`. -/
abbrev gateAt (o : Nat) (ho : o + 256 ≤ 1024) (j : Fin 256) : Fin 1024 := ⟨o + j.val, by have := j.isLt; omega⟩

/-- The step's rectified output. Blocks: input gate at 0, cell candidate at 512, output gate at 768 (the forget
    gate at 256 multiplies the zero state and is not read). `max (σ(o_j) · tanh (σ(i_j) · tanh g_j)) 0`. -/
def cell (g : Fin 1024 → EReal) (j : Fin 256) : EReal :=
  max (Ideal.logistic (g (gateAt 768 (by decide) j))
        * Ideal.tanh (Ideal.logistic (g (gateAt 0 (by decide) j)) * Ideal.tanh (g (gateAt 512 (by decide) j)))) zero32

/-- The last dense layer: `Σ_j h j · w3 j q + b3 q`. -/
def logits (h : Fin 256 → EReal) (w3 : Fin 256 → Fin 32 → EReal) (b3 : Fin 32 → EReal) (q : Fin 32) : EReal :=
  (∑ j : Fin 256, h j * w3 j q) + b3 q

/-- A row's maximum over the 32 classes, folded from −∞ (and once more against −∞, as both programs do). -/
def rowMax (l : Fin 32 → EReal) : EReal :=
  max negInf32 ((Finset.univ : Finset (Fin 32)).fold max negInf32 l)

/-- The softmax of a row of 32 logits, shifted by the row's maximum. -/
def softmax (l : Fin 32 → EReal) (q : Fin 32) : EReal :=
  Ideal.div (Ideal.exp (l q - rowMax l)) (∑ k : Fin 32, Ideal.exp (l k - rowMax l))

/-- One result row from one input row and the (already transposed) weights. -/
def rowOut (r : Fin 512 → EReal) (w1 : Fin 512 → Fin 256 → EReal) (b1 : Fin 256 → EReal)
    (wih : Fin 256 → Fin 1024 → EReal) (bs : Fin 1024 → EReal)
    (w3 : Fin 256 → Fin 32 → EReal) (b3 : Fin 32 → EReal) : Fin 32 → EReal :=
  softmax (logits (cell (gates (hidden r w1 b1) wih bs)) w3 b3)

/-- THE RESULT ARRAY as a function of the argument arrays (the recurrent weights do not occur): entry `(p, q)` is
    class `q` of the row computed from `x[p, 15, :, 127]`. -/
def G (x : (⟨4, ![64, 16, 512, 128]⟩ : Shape).Idx → EReal) (W1 : (⟨2, ![256, 512]⟩ : Shape).Idx → EReal)
    (b1 : (⟨1, ![256]⟩ : Shape).Idx → EReal) (Wih : (⟨2, ![1024, 256]⟩ : Shape).Idx → EReal)
    (bih bhh : (⟨1, ![1024]⟩ : Shape).Idx → EReal) (W3 : (⟨2, ![32, 256]⟩ : Shape).Idx → EReal)
    (b3 : (⟨1, ![32]⟩ : Shape).Idx → EReal) (i : (⟨2, ![64, 32]⟩ : Shape).Idx) : EReal :=
  rowOut (fun k => x (ix4 (i 0) (15 : Fin 16) k (127 : Fin 128))) (fun k j => W1 (ix2 j k)) (fun j => b1 (ix1 j))
    (fun j n => Wih (ix2 n j)) (fun n => bih (ix1 n) + bhh (ix1 n)) (fun j q => W3 (ix2 q j)) (fun q => b3 (ix1 q)) (i 1)

end Cert.RowSpec

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.KernelRow.lean ====
/-
  The kernel's body, read at one row.

  The body is handed seven whole arrays: the 64 kept input rows `X` (64×512), the three weight matrices already
  transposed (512×256, 256×1024, 256×32) and the three bias rows (1×256, 1×1024, 1×32). Every operation of it is
  either a product of row `p` of its left operand with a whole matrix, a pointwise operation, a one-row broadcast of a
  bias down the rows, a column block cut out of the 1024 gate columns, or a reduction along a row. So row `p` of every
  intermediate value depends on row `p` of `X` only, and what the body stores at (p, q) is class `q` of
  `RowSpec.rowOut` of that row. A change of float format (the body narrows its product operands) is the identity on
  the extended reals, and the logistic is one operation there.
-/
import proofs.«160652_j39917426049717_1_alg».proof.Proof.RowSpec
import proofs.«160652_j39917426049717_1_alg».proof.Proof.LibPlainDot
import proofs.«160652_j39917426049717_1_alg».proof.Proof.Gen.KernelIdeal.Value
import Idealize.ShloMosaic.Lib.ValueLayout
import Idealize.ShloMosaic.PureOps.Ideal.Laws

noncomputable section

namespace Cert.KernelRow

open Cert.KernelIdeal Cert.KernelIdeal.Gen Idealize.ShloMosaic Idealize.ShloMosaic.ValueIdx Cert.RowSpec

variable (P0 : Vec Ideal S64x512 .f32) (P1 : Vec Ideal S512x256 .f32) (P2 : Vec Ideal S1x256 .f32)
  (P3 : Vec Ideal S256x1024 .f32) (P4 : Vec Ideal S1x1024 .f32) (P5 : Vec Ideal S256x32 .f32) (P6 : Vec Ideal S1x32 .f32)

/-! ## The operands as the specification's arguments -/

/-- Row `p` of the input rows. -/
abbrev xRow (p : Fin 64) : Fin 512 → EReal := fun k => P0 (ix2 p k)
/-- The first layer's weights, input index first. -/
abbrev w1 : Fin 512 → Fin 256 → EReal := fun k j => P1 (ix2 k j)
abbrev b1 : Fin 256 → EReal := fun j => P2 (ix2 (0 : Fin 1) j)
/-- The gate weights, hidden index first. -/
abbrev wih : Fin 256 → Fin 1024 → EReal := fun j n => P3 (ix2 j n)
abbrev bs : Fin 1024 → EReal := fun n => P4 (ix2 (0 : Fin 1) n)
/-- The last layer's weights, hidden index first. -/
abbrev w3 : Fin 256 → Fin 32 → EReal := fun j q => P5 (ix2 j q)
abbrev b3 : Fin 32 → EReal := fun q => P6 (ix2 (0 : Fin 1) q)

/-! ## The body's four stages before the softmax, as vectors -/

/-- The rectified first layer as the body spells it. -/
def bodyHidden : FVec Ideal S64x256 .f32 :=
  maximumf (addf (matmul dot_S64x512_S512x256_S64x256_1_0_0_1_n_n none
        (truncf .bf16 (shapeCast S64x512 P0 shapeCasts_S64x512_S64x512) bitsLt_bf16_f32)
        (truncf .bf16 (shapeCast S512x256 P1 shapeCasts_S512x256_S512x256) bitsLt_bf16_f32)
        (constant S64x256 .f32 0x00000000#32))
      (broadcastTo S64x256 (shapeCast S1x256 P2 shapeCasts_S1x256_S1x256) broadcasts_S1x256_S64x256))
    (broadcast S64x256 (Scalar.ofBits .f32 0x00000000#32))

/-- The gate pre-activations from a hidden array `H`. -/
def bodyGates (H : FVec Ideal S64x256 .f32) : FVec Ideal S64x1024 .f32 :=
  addf (matmul dot_S64x256_S256x1024_S64x1024_1_0_0_1_n_n none (truncf .bf16 H bitsLt_bf16_f32)
        (truncf .bf16 (shapeCast S256x1024 P3 shapeCasts_S256x1024_S256x1024) bitsLt_bf16_f32)
        (constant S64x1024 .f32 0x00000000#32))
    (broadcastTo S64x1024 (shapeCast S1x1024 P4 shapeCasts_S1x1024_S1x1024) broadcasts_S1x1024_S64x1024)

/-- The rectified step output from a gate array `Gt`. -/
def bodyCell (Gt : FVec Ideal S64x1024 .f32) : FVec Ideal S64x256 .f32 :=
  maximumf (mulf (logistic (extractStridedSlice S64x256 ![0, 768] Gt slices_S64x1024_o0_768_S64x256))
      (tanh (mulf (logistic (extractStridedSlice S64x256 ![0, 0] Gt slices_S64x1024_o0_0_S64x256))
        (tanh (extractStridedSlice S64x256 ![0, 512] Gt slices_S64x1024_o0_512_S64x256)))))
    (broadcast S64x256 (Scalar.ofBits .f32 0x00000000#32))

/-- The last product from a step output `Hc`. -/
def bodyDot3 (Hc : FVec Ideal S64x256 .f32) : FVec Ideal S64x32 .f32 :=
  matmul dot_S64x256_S256x32_S64x32_1_0_0_1_n_n none (truncf .bf16 Hc bitsLt_bf16_f32)
    (truncf .bf16 (shapeCast S256x32 P5 shapeCasts_S256x32_S256x32) bitsLt_bf16_f32) (constant S64x32 .f32 0x00000000#32)

/-- The body's payload before the last bias is these four stages composed. -/
theorem pay2_eq : k0_pay2 P0 P1 P2 P3 P4 P5 = bodyDot3 P5 (bodyCell (bodyGates P3 P4 (bodyHidden P0 P1 P2))) := rfl

/-! ## Each stage at row `p` -/

theorem bodyHidden_apply (p : Fin 64) (j : Fin 256) :
    bodyHidden P0 P1 P2 (ix2 p j) = hidden (xRow P0 p) (w1 P1) (b1 P2) j := by
  unfold bodyHidden RowSpec.hidden
  rw [maximumf_apply, addf_apply, broadcast_apply]
  refine congrArg₂ max (congrArg₂ (· + ·) ?_ ?_) rfl
  · refine (PlainDot.matmul_zero_apply 64 512 256 _ _ p j).trans (Finset.sum_congr rfl fun k _ => ?_)
    rw [truncf_apply, truncf_apply, shapeCast_self, shapeCast_self]
  · refine (broadcastTo_1b_ab_apply _ _ p j).trans ?_
    rw [shapeCast_self]

theorem bodyGates_apply (H : FVec Ideal S64x256 .f32) (h : Fin 256 → EReal) (p : Fin 64) (hH : ∀ j, H (ix2 p j) = h j) (n : Fin 1024) :
    bodyGates P3 P4 H (ix2 p n) = gates h (wih P3) (bs P4) n := by
  unfold bodyGates gates
  rw [addf_apply]
  refine congrArg₂ (· + ·) ?_ ?_
  · refine (PlainDot.matmul_zero_apply 64 256 1024 _ _ p n).trans (Finset.sum_congr rfl fun j _ => ?_)
    rw [truncf_apply, truncf_apply, shapeCast_self, hH]
  · refine (broadcastTo_1b_ab_apply _ _ p n).trans ?_
    rw [shapeCast_self]

theorem bodyCell_apply (Gt : FVec Ideal S64x1024 .f32) (g : Fin 1024 → EReal) (p : Fin 64) (hG : ∀ n, Gt (ix2 p n) = g n) (j : Fin 256) :
    bodyCell Gt (ix2 p j) = cell g j := by
  unfold bodyCell cell
  rw [maximumf_apply, broadcast_apply, mulf_apply]
  have e768 : extractStridedSlice S64x256 ![0, 768] Gt slices_S64x1024_o0_768_S64x256 (ix2 p j) = g (gateAt 768 (by decide) j) :=
    (slice2_axis1_apply 768 Gt _ p j (gateAt 768 (by decide) j) rfl).trans (hG _)
  have e0 : extractStridedSlice S64x256 ![0, 0] Gt slices_S64x1024_o0_0_S64x256 (ix2 p j) = g (gateAt 0 (by decide) j) :=
    (slice2_axis1_apply 0 Gt _ p j (gateAt 0 (by decide) j) rfl).trans (hG _)
  have e512 : extractStridedSlice S64x256 ![0, 512] Gt slices_S64x1024_o0_512_S64x256 (ix2 p j) = g (gateAt 512 (by decide) j) :=
    (slice2_axis1_apply 512 Gt _ p j (gateAt 512 (by decide) j) rfl).trans (hG _)
  show max (Ideal.logistic (extractStridedSlice S64x256 ![0, 768] Gt slices_S64x1024_o0_768_S64x256 (ix2 p j))
      * Ideal.tanh (Ideal.logistic (extractStridedSlice S64x256 ![0, 0] Gt slices_S64x1024_o0_0_S64x256 (ix2 p j))
          * Ideal.tanh (extractStridedSlice S64x256 ![0, 512] Gt slices_S64x1024_o0_512_S64x256 (ix2 p j)))) zero32 = _
  rw [e768, e0, e512]

theorem bodyDot3_apply (Hc : FVec Ideal S64x256 .f32) (h : Fin 256 → EReal) (p : Fin 64) (hH : ∀ j, Hc (ix2 p j) = h j) (q : Fin 32) :
    bodyDot3 P5 Hc (ix2 p q) = ∑ j : Fin 256, h j * w3 P5 j q := by
  unfold bodyDot3
  refine (PlainDot.matmul_zero_apply 64 256 32 _ _ p q).trans (Finset.sum_congr rfl fun j _ => ?_)
  rw [truncf_apply, truncf_apply, shapeCast_self, hH]

/-- Row `p` of the step output, from row `p` of the input. -/
abbrev cellRow (p : Fin 64) : Fin 256 → EReal :=
  cell (gates (hidden (xRow P0 p) (w1 P1) (b1 P2)) (wih P3) (bs P4))

theorem pay2_apply (p : Fin 64) (q : Fin 32) :
    k0_pay2 P0 P1 P2 P3 P4 P5 (ix2 p q) = ∑ j : Fin 256, cellRow P0 P1 P2 P3 P4 p j * w3 P5 j q := by
  rw [pay2_eq]
  exact bodyDot3_apply P5 _ _ p (fun j => bodyCell_apply _ _ p (fun n => bodyGates_apply P3 P4 _ _ p
    (fun j' => bodyHidden_apply P0 P1 P2 p j') n) j) q

/-! ## The softmax tail at row `p` -/

/-- Row `p` of the logits, from row `p` of the input. -/
abbrev logitRow (p : Fin 64) : Fin 32 → EReal :=
  logits (cellRow P0 P1 P2 P3 P4 p) (w3 P5) (b3 P6)

/-- The logits as the body's vector: the last product plus the bias row broadcast down the rows. -/
def bodyLogits : FVec Ideal S64x32 .f32 :=
  addf (k0_pay2 P0 P1 P2 P3 P4 P5) (broadcastTo S64x32 (shapeCast S1x32 P6 shapeCasts_S1x32_S1x32) broadcasts_S1x32_S64x32)

theorem bodyLogits_apply (p : Fin 64) (q : Fin 32) :
    bodyLogits P0 P1 P2 P3 P4 P5 P6 (ix2 p q) = logitRow P0 P1 P2 P3 P4 P5 P6 p q := by
  unfold bodyLogits
  rw [addf_apply]
  show _ = (∑ j : Fin 256, cellRow P0 P1 P2 P3 P4 p j * w3 P5 j q) + b3 P6 q
  refine congrArg₂ (· + ·) (pay2_apply P0 P1 P2 P3 P4 P5 p q) ?_
  refine (broadcastTo_1b_ab_apply _ _ p q).trans ?_
  rw [shapeCast_self]

/-- The index a reduction along the columns inserts `k` at, under row `p`, is (p, k). -/
theorem lift_row (p : Fin 64) (k : Fin 32) :
    (reduces_S64x32_S64 : S64x32.Reduces [1] S64).lift (ix1 p) k = ix2 p k :=
  funext fun a => Fin.ext (by match a with | ⟨0, _⟩ => rfl | ⟨1, _⟩ => rfl)

/-- The row maximum the body reduces, at row `p`: the fold of `max` from −∞ over the row's 32 logits. -/
theorem bodyRowMax_apply (p : Fin 64) :
    multiReduction .maximumf [1] S64 (bodyLogits P0 P1 P2 P3 P4 P5 P6) 0xFF800000#32 reduces_S64x32_S64 (.inl rfl) rfl (ix1 p)
      = (Finset.univ : Finset (Fin 32)).fold max negInf32 (logitRow P0 P1 P2 P3 P4 P5 P6 p) := by
  refine (Ideal.multiReduction_maximumf_single (bodyLogits P0 P1 P2 P3 P4 P5 P6) 0xFF800000#32 reduces_S64x32_S64
    (.inl rfl) rfl (ix1 p)).trans ?_
  have e : (bodyLogits P0 P1 P2 P3 P4 P5 P6 ∘ (reduces_S64x32_S64 : S64x32.Reduces [1] S64).lift (ix1 p))
      = logitRow P0 P1 P2 P3 P4 P5 P6 p :=
    funext fun k => (congrArg (bodyLogits P0 P1 P2 P3 P4 P5 P6) (lift_row p k)).trans (bodyLogits_apply P0 P1 P2 P3 P4 P5 P6 p k)
  exact congrArg (fun f : Fin 32 → EReal => (Finset.univ : Finset (Fin 32)).fold max negInf32 f) e

/-- A column of 64 values, cast to 64×1 and broadcast along the rows, reads at (p, q) the column's entry `p`. -/
theorem colBroadcast_apply (v : FVec Ideal S64 .f32) (p : Fin 64) (q : Fin 32) :
    broadcastTo S64x32 (shapeCast S64x1 v shapeCasts_S64_S64x1) broadcasts_S64x1_S64x32 (ix2 p q) = v (ix1 p) := by
  refine (broadcastTo_apply _ _ (ix2 p q) (ix2 p (0 : Fin 1)) (fun a => match a with
    | ⟨0, _⟩ => by show p.val = (if (64 : Nat) = 1 then 0 else p.val); rw [if_neg (by decide)]
    | ⟨1, _⟩ => by show 0 = (if (1 : Nat) = 1 then 0 else q.val); rw [if_pos rfl])).trans ?_
  exact shapeCast_apply _ _ (ix2 p (0 : Fin 1)) (ix1 p) (by
    rw [Shape.rowMajor_val_one, Shape.rowMajor_val_two]; show p.val = p.val * 1 + 0; omega)

/-- The exponential of a vector at an index. -/
theorem exp_apply {s : Shape} {φ : FTy} (v : FVec Ideal s φ) (i : s.Idx) : exp v i = Ideal.exp (v i) := rfl

/-- The shifted exponentials as the body's vector. -/
def bodyExp : FVec Ideal S64x32 .f32 :=
  exp (subf (bodyLogits P0 P1 P2 P3 P4 P5 P6)
    (broadcastTo S64x32 (shapeCast S64x1 (maximumf (broadcast S64 (Scalar.ofBits .f32 0xFF800000#32))
      (multiReduction .maximumf [1] S64 (bodyLogits P0 P1 P2 P3 P4 P5 P6) 0xFF800000#32 reduces_S64x32_S64 (.inl rfl) rfl))
      shapeCasts_S64_S64x1) broadcasts_S64x1_S64x32))

theorem bodyExp_apply (p : Fin 64) (q : Fin 32) :
    bodyExp P0 P1 P2 P3 P4 P5 P6 (ix2 p q)
      = Ideal.exp (logitRow P0 P1 P2 P3 P4 P5 P6 p q - rowMax (logitRow P0 P1 P2 P3 P4 P5 P6 p)) := by
  unfold bodyExp rowMax
  rw [exp_apply, subf_apply, bodyLogits_apply, colBroadcast_apply, maximumf_apply, broadcast_apply, bodyRowMax_apply]
  rfl

/-- The row sum of the shifted exponentials the body reduces, at row `p`. -/
theorem bodyRowSum_apply (p : Fin 64) :
    multiReduction .add [1] S64 (bodyExp P0 P1 P2 P3 P4 P5 P6) 0x00000000#32 reduces_S64x32_S64 (.inl rfl) rfl (ix1 p)
      = ∑ k : Fin 32, Ideal.exp (logitRow P0 P1 P2 P3 P4 P5 P6 p k - rowMax (logitRow P0 P1 P2 P3 P4 P5 P6 p)) := by
  refine (Ideal.multiReduction_add_single (bodyExp P0 P1 P2 P3 P4 P5 P6) 0x00000000#32 reduces_S64x32_S64
    (.inl rfl) rfl (ix1 p)).trans ?_
  exact Finset.sum_congr rfl fun k _ =>
    (congrArg (bodyExp P0 P1 P2 P3 P4 P5 P6) (lift_row p k)).trans (bodyExp_apply P0 P1 P2 P3 P4 P5 P6 p k)

/-! ## What the body stores, at (p, q) -/

/-- The block the body leaves (the generated index-by-index form of its one store) at (p, q) is class `q` of the
    specification's row function at row `p` of the inputs. -/
theorem stored_apply (p : Fin 64) (q : Fin 32) :
    Cert.KernelIdeal.Value.E7 (F := Ideal) P0 P1 P2 P3 P4 P5 P6 (ix2 p q)
      = rowOut (xRow P0 p) (w1 P1) (b1 P2) (wih P3) (bs P4) (w3 P5) (b3 P6) q := by
  have h0 : Cert.KernelIdeal.Value.ix7_0 (ix2 p q) = ix2 p q :=
    funext fun a => Fin.ext (by match a with | ⟨0, _⟩ => rfl | ⟨1, _⟩ => rfl)
  have h1 : Cert.KernelIdeal.Value.ix7_1 (ix2 p q) = ix2 (0 : Fin 1) q :=
    funext fun a => Fin.ext (by match a with | ⟨0, _⟩ => rfl | ⟨1, _⟩ => rfl)
  have h2 : Cert.KernelIdeal.Value.ix7_2 (ix2 p q) = ix1 p :=
    funext fun a => Fin.ext (by match a with | ⟨0, _⟩ => rfl)
  have h3 : Cert.KernelIdeal.Value.ix7_3 (ix2 p q) = ix1 p :=
    funext fun a => Fin.ext (by match a with | ⟨0, _⟩ => rfl)
  show Ideal.div (Ideal.exp ((k0_pay2 P0 P1 P2 P3 P4 P5 (Cert.KernelIdeal.Value.ix7_0 (ix2 p q)) + P6 (Cert.KernelIdeal.Value.ix7_1 (ix2 p q)))
      - max negInf32 (multiReduction .maximumf [1] S64 (bodyLogits P0 P1 P2 P3 P4 P5 P6) 0xFF800000#32 reduces_S64x32_S64 (.inl rfl) rfl
          (Cert.KernelIdeal.Value.ix7_2 (ix2 p q)))))
    (multiReduction .add [1] S64 (bodyExp P0 P1 P2 P3 P4 P5 P6) 0x00000000#32 reduces_S64x32_S64 (.inl rfl) rfl
      (Cert.KernelIdeal.Value.ix7_3 (ix2 p q))) = _
  rw [h0, h1, h2, h3, bodyRowMax_apply, bodyRowSum_apply, pay2_apply]
  rfl

end Cert.KernelRow

end
-- ==== Proof.KernelValue.lean ====
/-
  The kernel's result array as the specification's function of the argument arrays.

  Before its one launch the program prepares the launch's seven operands from the arguments: the 64 kept rows
  `x[p, 15, :, 127]` (a slice, then a reshape that drops the two unit axes), the three weight matrices transposed,
  and the three bias vectors as one-row matrices (the two gate biases added first). The launch has ONE grid point and
  every window's block is its whole array, so the body's loads read those seven arrays whole and its one store
  writes the whole 64×32 result; the body's stored block at (p, q) is class `q` of the row function at row `p`
  (`KernelRow.stored_apply`), and reading the operands back through the preparation gives `RowSpec.G` of the
  arguments. The block covers the result array, so the array ends at `G`.
-/
import proofs.«160652_j39917426049717_1_alg».proof.Proof.RowSpec
import proofs.«160652_j39917426049717_1_alg».proof.Proof.KernelRow
import proofs.«160652_j39917426049717_1_alg».proof.Proof.Gen.KernelIdeal.Value
import Idealize.ShloMosaic.Lib.ValueLayout
import Idealize.ShloMosaic.Lib.StableHlo.Run

noncomputable section

namespace Cert.KernelValue

open Cert.KernelIdeal Cert.KernelIdeal.Gen Cert.KernelIdeal.Value Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

/-! ## The argument arrays, at their literal types -/

/-- The input `x`, 64 × 16 × 512 × 128. -/
abbrev argX (c : Dev nD) : S64x16x512x128.Idx → EReal := m ((c : Thread nD τ).loc main_arg0)
/-- The first layer's weights, 256 × 512, and bias. -/
abbrev argW1 (c : Dev nD) : S256x512.Idx → EReal := m ((c : Thread nD τ).loc main_arg1)
abbrev argB1 (c : Dev nD) : S256.Idx → EReal := m ((c : Thread nD τ).loc main_arg2)
/-- The gate weights on the input, 1024 × 256, and the two gate biases. -/
abbrev argWih (c : Dev nD) : S1024x256.Idx → EReal := m ((c : Thread nD τ).loc main_arg3)
abbrev argBih (c : Dev nD) : S1024.Idx → EReal := m ((c : Thread nD τ).loc main_arg5)
abbrev argBhh (c : Dev nD) : S1024.Idx → EReal := m ((c : Thread nD τ).loc main_arg6)
/-- The last layer's weights, 32 × 256, and bias. -/
abbrev argW3 (c : Dev nD) : S32x256.Idx → EReal := m ((c : Thread nD τ).loc main_arg7)
abbrev argB3 (c : Dev nD) : S32.Idx → EReal := m ((c : Thread nD τ).loc main_arg8)

/-- The specification's result array of these arguments. -/
abbrev resultOf (c : Dev nD) : S64x32.Idx → EReal :=
  RowSpec.G (argX m c) (argW1 m c) (argB1 m c) (argWih m c) (argBih m c) (argBhh m c) (argW3 m c) (argB3 m c)

/-! ## The launch's operands, as the program prepares them -/

theorem rowsArr_eq (c : Dev nD) : (V m c main_v1 : S64x512.Idx → EReal) =
    shapeCast S64x512 (extractStridedSlice S64x1x512x1 ![0, 15, 0, 127] (m ((c : Thread nD τ).loc main_arg0))
      slices_S64x16x512x128_S64x1x512x1_0_15_0_127) shapeCasts_S64x1x512x1_S64x512 := by
  dsimp only [Gen.V, Gen.hostOps0]; after_results; try rfl

theorem w1Arr_eq (c : Dev nD) : (V m c main_v2 : S512x256.Idx → EReal) =
    transpose S512x256 [1, 0] (m ((c : Thread nD τ).loc main_arg1)) transposes_S256x512_S512x256_1_0 := by
  dsimp only [Gen.V, Gen.hostOps0]; after_results; try rfl

theorem wihArr_eq (c : Dev nD) : (V m c main_v3 : S256x1024.Idx → EReal) =
    transpose S256x1024 [1, 0] (m ((c : Thread nD τ).loc main_arg3)) transposes_S1024x256_S256x1024_1_0 := by
  dsimp only [Gen.V, Gen.hostOps0]; after_results; try rfl

theorem w3Arr_eq (c : Dev nD) : (V m c main_v4 : S256x32.Idx → EReal) =
    transpose S256x32 [1, 0] (m ((c : Thread nD τ).loc main_arg7)) transposes_S32x256_S256x32_1_0 := by
  dsimp only [Gen.V, Gen.hostOps0]; after_results; try rfl

theorem bsArr_eq (c : Dev nD) : (V m c main_v6 : S1x1024.Idx → EReal) =
    shapeCast S1x1024 (addf (m ((c : Thread nD τ).loc main_arg5)) (m ((c : Thread nD τ).loc main_arg6)) : FVec Ideal S1024 .f32)
      shapeCasts_S1024_S1x1024 := by
  dsimp only [Gen.V, Gen.hostOps0]; after_results; try rfl

theorem b1Arr_eq (c : Dev nD) : (V m c main_v7 : S1x256.Idx → EReal) =
    shapeCast S1x256 (m ((c : Thread nD τ).loc main_arg2)) shapeCasts_S256_S1x256 := by
  dsimp only [Gen.V, Gen.hostOps0]; after_results; try rfl

theorem b3Arr_eq (c : Dev nD) : (V m c main_v8 : S1x32.Idx → EReal) =
    shapeCast S1x32 (m ((c : Thread nD τ).loc main_arg8)) shapeCasts_S32_S1x32 := by
  dsimp only [Gen.V, Gen.hostOps0]; after_results; try rfl

/-! ## The operands read at an index -/

/-- Kept row `p` at `k` is `x[p, 15, k, 127]`: the reshape keeps the row-major position, p · 512 + k on both sides. -/
theorem rowsArr_apply (c : Dev nD) (p : Fin 64) (k : Fin 512) :
    (V m c main_v1 : S64x512.Idx → EReal) (ix2 p k)
      = argX m c (ix4 p (15 : Fin 16) k (127 : Fin 128)) := by
  rw [rowsArr_eq]
  refine (shapeCast_apply _ _ (ix2 p k) (ix4 p (0 : Fin 1) k (0 : Fin 1)) (by
    rw [Shape.rowMajor_val_four, Shape.rowMajor_val_two]
    show ((p.val * 1 + 0) * 512 + k.val) * 1 + 0 = p.val * 512 + k.val
    omega)).trans ?_
  exact extractStridedSlice_apply _ _ _ (ix4 p (0 : Fin 1) k (0 : Fin 1)) (ix4 p (15 : Fin 16) k (127 : Fin 128)) (fun a => by
    match a with
    | ⟨0, _⟩ => exact (Nat.zero_add _).symm
    | ⟨1, _⟩ => rfl
    | ⟨2, _⟩ => exact (Nat.zero_add _).symm
    | ⟨3, _⟩ => rfl)

theorem w1Arr_apply (c : Dev nD) (k : Fin 512) (j : Fin 256) :
    (V m c main_v2 : S512x256.Idx → EReal) (ix2 k j) = argW1 m c (ix2 j k) := by
  rw [w1Arr_eq]; exact transpose_ix2_apply _ _ k j

theorem wihArr_apply (c : Dev nD) (j : Fin 256) (n : Fin 1024) :
    (V m c main_v3 : S256x1024.Idx → EReal) (ix2 j n) = argWih m c (ix2 n j) := by
  rw [wihArr_eq]; exact transpose_ix2_apply _ _ j n

theorem w3Arr_apply (c : Dev nD) (j : Fin 256) (q : Fin 32) :
    (V m c main_v4 : S256x32.Idx → EReal) (ix2 j q) = argW3 m c (ix2 q j) := by
  rw [w3Arr_eq]; exact transpose_ix2_apply _ _ j q

theorem bsArr_apply (c : Dev nD) (n : Fin 1024) :
    (V m c main_v6 : S1x1024.Idx → EReal) (ix2 (0 : Fin 1) n)
      = argBih m c (ix1 n) + argBhh m c (ix1 n) := by
  rw [bsArr_eq]; exact shapeCast_a_1a_apply _ _ (0 : Fin 1) n

theorem b1Arr_apply (c : Dev nD) (j : Fin 256) :
    (V m c main_v7 : S1x256.Idx → EReal) (ix2 (0 : Fin 1) j) = argB1 m c (ix1 j) := by
  rw [b1Arr_eq]; exact shapeCast_a_1a_apply _ _ (0 : Fin 1) j

theorem b3Arr_apply (c : Dev nD) (q : Fin 32) :
    (V m c main_v8 : S1x32.Idx → EReal) (ix2 (0 : Fin 1) q) = argB3 m c (ix1 q) := by
  rw [b3Arr_eq]; exact shapeCast_a_1a_apply _ _ (0 : Fin 1) q

/-! ## The one grid point: every block is its whole array -/

/-- Every window's block index is (0, 0) at the grid's one point (decided over the grid). -/
theorem index_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- The block of kept rows the body loads is the whole prepared array. -/
theorem rowsBlk_eq (c : Dev nD) (t : Fin cfg0.N) : (iblk m c 0 t : S64x512.Idx → EReal) = V m c main_v1 := by
  obtain ⟨h0, h1, -⟩ := index_zero t
  funext y
  show (V m c main_v1 : S64x512.Idx → EReal) (((cfg0.win 0).blk t).view.emb y) = _
  refine congrArg _ (funext fun a => Fin.ext ?_)
  match a with
  | ⟨0, _⟩ => show win0_0.index t (0 : Fin 2) * 64 + 1 * (y 0).val = (y 0).val; omega
  | ⟨1, _⟩ => show win0_0.index t (1 : Fin 2) * 512 + 1 * (y 1).val = (y 1).val; omega

theorem w1Blk_eq (c : Dev nD) (t : Fin cfg0.N) : (iblk m c 1 t : S512x256.Idx → EReal) = V m c main_v2 := by
  obtain ⟨-, -, h0, h1, -⟩ := index_zero t
  funext y
  show (V m c main_v2 : S512x256.Idx → EReal) (((cfg0.win 1).blk t).view.emb y) = _
  refine congrArg _ (funext fun a => Fin.ext ?_)
  match a with
  | ⟨0, _⟩ => show win0_1.index t (0 : Fin 2) * 512 + 1 * (y 0).val = (y 0).val; omega
  | ⟨1, _⟩ => show win0_1.index t (1 : Fin 2) * 256 + 1 * (y 1).val = (y 1).val; omega

theorem b1Blk_eq (c : Dev nD) (t : Fin cfg0.N) : (iblk m c 2 t : S1x256.Idx → EReal) = V m c main_v7 := by
  obtain ⟨-, -, -, -, h0, h1, -⟩ := index_zero t
  funext y
  show (V m c main_v7 : S1x256.Idx → EReal) (((cfg0.win 2).blk t).view.emb y) = _
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

theorem wihBlk_eq (c : Dev nD) (t : Fin cfg0.N) : (iblk m c 3 t : S256x1024.Idx → EReal) = V m c main_v3 := by
  obtain ⟨-, -, -, -, -, -, h0, h1, -⟩ := index_zero t
  funext y
  show (V m c main_v3 : S256x1024.Idx → EReal) (((cfg0.win 3).blk t).view.emb y) = _
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 1024 + 1 * (y 1).val = (y 1).val; omega

theorem bsBlk_eq (c : Dev nD) (t : Fin cfg0.N) : (iblk m c 4 t : S1x1024.Idx → EReal) = V m c main_v6 := by
  obtain ⟨-, -, -, -, -, -, -, -, h0, h1, -⟩ := index_zero t
  funext y
  show (V m c main_v6 : S1x1024.Idx → EReal) (((cfg0.win 4).blk t).view.emb y) = _
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 1024 + 1 * (y 1).val = (y 1).val; omega

theorem w3Blk_eq (c : Dev nD) (t : Fin cfg0.N) : (iblk m c 5 t : S256x32.Idx → EReal) = V m c main_v4 := by
  obtain ⟨-, -, -, -, -, -, -, -, -, -, h0, h1, -⟩ := index_zero t
  funext y
  show (V m c main_v4 : S256x32.Idx → EReal) (((cfg0.win 5).blk t).view.emb y) = _
  refine congrArg _ (funext fun a => Fin.ext ?_)
  match a with
  | ⟨0, _⟩ => show win0_5.index t (0 : Fin 2) * 256 + 1 * (y 0).val = (y 0).val; omega
  | ⟨1, _⟩ => show win0_5.index t (1 : Fin 2) * 32 + 1 * (y 1).val = (y 1).val; omega

theorem b3Blk_eq (c : Dev nD) (t : Fin cfg0.N) : (iblk m c 6 t : S1x32.Idx → EReal) = V m c main_v8 := by
  obtain ⟨-, -, -, -, -, -, -, -, -, -, -, -, h0, h1, -⟩ := index_zero t
  funext y
  show (V m c main_v8 : S1x32.Idx → EReal) (((cfg0.win 6).blk t).view.emb y) = _
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 32 + 1 * (y 1).val = (y 1).val; omega

/-- The result window's block sits at the array's origin: block entry `y` is array entry `y`. -/
theorem outBlk_emb (t : Fin cfg0.N) (y : S64x32.Idx) : ((cfg0.win 7).blk t).view.emb y = y := by
  obtain ⟨-, -, -, -, -, -, -, -, -, -, -, -, -, -, h0, h1⟩ := index_zero t
  funext a; apply Fin.ext
  match a with
  | ⟨0, _⟩ => show win0_7.index t (0 : Fin 2) * 64 + 1 * (y 0).val = (y 0).val; omega
  | ⟨1, _⟩ => show win0_7.index t (1 : Fin 2) * 32 + 1 * (y 1).val = (y 1).val; omega

/-! ## What the grid point writes back, and the array after the run -/

theorem zeroOffsets : (![0, 0] : Fin 2 → Nat) = fun _ => 0 := funext fun a => by fin_cases a <;> rfl

/-- What the body leaves in the result's staging buffer is, entry by entry, the specification's result array of
    the arguments: the stored block is the row function of the operands (`KernelRow.stored_apply`), and the operands
    read back through the preparation are the arguments' rows, transposes and bias rows. -/
theorem stored_eq (c : Dev nD) (t : Fin cfg0.N) :
    out0_7 (iblk m c 0 t) (iblk m c 1 t) (iblk m c 2 t) (iblk m c 3 t) (iblk m c 4 t) (iblk m c 5 t) (iblk m c 6 t)
      = resultOf m c := by
  unfold out0_7
  simp only [View.ld_unit_zero (S := S64x512) zeroOffsets, View.ld_unit_zero (S := S512x256) zeroOffsets,
    View.ld_unit_zero (S := S1x256) zeroOffsets, View.ld_unit_zero (S := S256x1024) zeroOffsets,
    View.ld_unit_zero (S := S1x1024) zeroOffsets, View.ld_unit_zero (S := S256x32) zeroOffsets,
    View.ld_unit_zero (S := S1x32) zeroOffsets]
  funext y
  obtain ⟨p, q, rfl⟩ : ∃ (p : Fin 64) (q : Fin 32), y = ix2 p q := ⟨y 0, y 1, eq_ix2 y⟩
  refine (canon7_eq (F := Ideal) (iblk m c 0 t) (iblk m c 1 t) (iblk m c 2 t) (iblk m c 3 t) (iblk m c 4 t) (iblk m c 5 t)
    (iblk m c 6 t) (ix2 p q)).trans ?_
  refine (KernelRow.stored_apply (iblk m c 0 t) (iblk m c 1 t) (iblk m c 2 t) (iblk m c 3 t) (iblk m c 4 t) (iblk m c 5 t)
    (iblk m c 6 t) p q).trans ?_
  have e0 : KernelRow.xRow (iblk m c 0 t) p = fun k => argX m c (ix4 p (15 : Fin 16) k (127 : Fin 128)) :=
    funext fun k => (congrFun (rowsBlk_eq m c t) (ix2 p k)).trans (rowsArr_apply m c p k)
  have e1 : KernelRow.w1 (iblk m c 1 t) = fun k j => argW1 m c (ix2 j k) :=
    funext fun k => funext fun j => (congrFun (w1Blk_eq m c t) (ix2 k j)).trans (w1Arr_apply m c k j)
  have e2 : KernelRow.b1 (iblk m c 2 t) = fun j => argB1 m c (ix1 j) :=
    funext fun j => (congrFun (b1Blk_eq m c t) (ix2 (0 : Fin 1) j)).trans (b1Arr_apply m c j)
  have e3 : KernelRow.wih (iblk m c 3 t) = fun j n => argWih m c (ix2 n j) :=
    funext fun j => funext fun n => (congrFun (wihBlk_eq m c t) (ix2 j n)).trans (wihArr_apply m c j n)
  have e4 : KernelRow.bs (iblk m c 4 t) = fun n => argBih m c (ix1 n) + argBhh m c (ix1 n) :=
    funext fun n => (congrFun (bsBlk_eq m c t) (ix2 (0 : Fin 1) n)).trans (bsArr_apply m c n)
  have e5 : KernelRow.w3 (iblk m c 5 t) = fun j q => argW3 m c (ix2 q j) :=
    funext fun j => funext fun q => (congrFun (w3Blk_eq m c t) (ix2 j q)).trans (w3Arr_apply m c j q)
  have e6 : KernelRow.b3 (iblk m c 6 t) = fun q => argB3 m c (ix1 q) :=
    funext fun q => (congrFun (b3Blk_eq m c t) (ix2 (0 : Fin 1) q)).trans (b3Arr_apply m c q)
  rw [e0, e1, e2, e3, e4, e5, e6]
  rfl

/-- What the one grid point writes back is the block, at the origin, of the specification's result array. -/
theorem flushed_eq (c : Dev nD) (t : Fin cfg0.N) :
    (dats m 0 c).flushed 7 t = ((cfg0.win 7).blk t).view.read (Elt Ideal) (resultOf m c) := by
  rw [flushed7, stored_eq]
  funext j
  show resultOf m c j = resultOf m c (((cfg0.win 7).blk t).view.emb j)
  rw [outBlk_emb]

/-- An array index lies in the point's block iff each coordinate lies in the block's range on its axis. -/
theorem mem_outBlk (t : Fin cfg0.N) (i : S64x32.Idx) :
    i ∈ ((cfg0.win 7).blk t).view.set ↔ ∀ a : Fin 2, win0_7.index t a * S64x32.size a ≤ (i a).val ∧ (i a).val < win0_7.index t a * S64x32.size a + S64x32.size a := by
  show i ∈ ((View.whole main_v9).slice (win0_7.rect t)).set ↔ _
  rw [View.set_slice_whole, Rect.mem_set_unit]
  exact Iff.rfl

/-- The one block covers the whole 64 × 32 result array. -/
theorem covered (i : S64x32.Idx) : ∃ t : Fin cfg0.N, (cfg0.win 7).flush t = true ∧ i ∈ ((cfg0.win 7).blk t).view.set := by
  refine ⟨t0_0, flush0_7 t0_0, ?_⟩
  obtain ⟨-, -, -, -, -, -, -, -, -, -, -, -, -, -, h0, h1⟩ := index_zero t0_0
  rw [mem_outBlk]
  intro a
  match a with
  | ⟨0, _⟩ => show win0_7.index t0_0 (0 : Fin 2) * 64 ≤ (i 0).val ∧ (i 0).val < win0_7.index t0_0 (0 : Fin 2) * 64 + 64; have hi : (i 0).val < 64 := (i 0).isLt; omega
  | ⟨1, _⟩ => show win0_7.index t0_0 (1 : Fin 2) * 32 ≤ (i 1).val ∧ (i 1).val < win0_7.index t0_0 (1 : Fin 2) * 32 + 32; have hi : (i 1).val < 32 := (i 1).isLt; omega

/-- THE RESULT ARRAY after the run is the specification's function of the arguments. -/
theorem final (c : Dev nD) : (dats m 0 c).arrAt 7 cfg0.N = resultOf m c :=
  (dats m 0 c).arrAt_eq_of_cover 7 (resultOf m c) (fun t _ => flushed_eq m c t) covered

/-- The kernel's run: it terminates, the result array holds `RowSpec.G` of the arguments, the arguments are unchanged. -/
theorem run : θ_run defs (onTc (τ := τ) (main (F := Ideal))) ⟨m, fun _ => 0, ρ⟩ fun r => ∀ c : Dev nD,
      r.2.mem ((c : Thread nD τ).loc main_v9) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelValue

end
-- ==== Proof.RefRow.lean ====
/-
  The reference program, read one row at a time.

  Between its first reshape and its last division the reference never mixes rows: every operation maps row
  'r' of its operands to row 'r' of its result.  So each mathematical stage is read at a generic row
  'r' of the 131072 flattened rows, over the generated per-operation readings:
    * the first dense layer with its rectifier is 'RowSpec.hidden' of that row of the reshaped input,
    * the gate pre-activations are 'RowSpec.gates' of that row of the hidden layer,
    * the recurrent step from a zero state is 'RowSpec.cell' of that row of the gates (the program spells the
      logistic function as 1 / (1 + exp (-x)), which is its definition),
    * the last dense layer is 'RowSpec.logits',
    * the row's maximum is the fold of 'max' from minus infinity over the 32 classes, and the softmax is
      'RowSpec.softmax' (its denominator is 0 + the sum, and 0 + s = s).
  The two layout ends: entry (p, q) of the result reads row p * 2048 + 2047 of the softmax at class q, and entry k
  of that row of the reshaped input is x[p, 15, k, 127], because
      (p * 2048 + 2047) * 512 + k = ((p * 16 + 15) * 128 + 127) * 512 + k.
-/
import proofs.«160652_j39917426049717_1_alg».proof.Proof.RowSpec
import proofs.«160652_j39917426049717_1_alg».proof.Proof.Gen.ReferenceIdeal.Read
import Idealize.ShloMosaic.PureOps.Reduce
import Idealize.ShloMosaic.PureOps.Ideal
import Idealize.ShloMosaic.PureOps.Ideal.Laws
import Idealize.ShloMosaic.Lib.ValueIdx
import Idealize.ShloMosaic.Lib.IdealHost

noncomputable section

namespace Cert.RefRow

open Cert.ReferenceIdeal Cert.ReferenceIdeal.Gen Cert.ReferenceIdeal.Read Idealize.ShloMosaic Idealize.ShloMosaic.ValueIdx

/-- Two rank-1 indices are equal when their one coordinate is, definitionally. -/
local macro "idx1" : tactic => `(tactic| (funext a; match a with | ⟨0, _⟩ => rfl))
/-- Two rank-2 indices are equal when their two coordinates are, definitionally. -/
local macro "idx2" : tactic => `(tactic| (funext a; match a with | ⟨0, _⟩ => rfl | ⟨1, _⟩ => rfl))

/-- The flattened row that holds position m = 15, b = 127 of sample p: p * 2048 + 15 * 128 + 127. -/
abbrev lastRow (p : Fin 64) : Fin 131072 := ⟨p.val * 2048 + 2047, by have := p.isLt; omega⟩

section Rows

variable (x0 : (⟨S64x16x512x128, .f32⟩ : BufTy).Contents (Elt Ideal)) (x1 : (⟨S256x512, .f32⟩ : BufTy).Contents (Elt Ideal))
  (x2 : (⟨S256, .f32⟩ : BufTy).Contents (Elt Ideal)) (x3 : (⟨S1024x256, .f32⟩ : BufTy).Contents (Elt Ideal))
  (x5 x6 : (⟨S1024, .f32⟩ : BufTy).Contents (Elt Ideal)) (x7 : (⟨S32x256, .f32⟩ : BufTy).Contents (Elt Ideal))
  (x8 : (⟨S32, .f32⟩ : BufTy).Contents (Elt Ideal))

/-! ## The first dense layer -/

/-- Row r of the rectified first layer: max (Σ_k in_r k · W1[j, k] + b1 j) 0. -/
theorem hidden_row (r : Fin 131072) (j : Fin 256) :
    val_main_v7 (F := Ideal) x0 x1 x2 (ix2 r j)
      = RowSpec.hidden (fun k => val_main_v1 (F := Ideal) x0 (ix2 r k)) (fun k j => x1 (ix2 j k)) (fun j => x2 (ix1 j)) j := by
  have e1 : ∀ k : Fin 512,
      val_main_v1 (F := Ideal) x0 (lidx_main_v3 (ix2 r j) k) * val_main_v2 (F := Ideal) x1 (ridx_main_v3 (ix2 r j) k)
        = val_main_v1 (F := Ideal) x0 (ix2 r k) * x1 (ix2 j k) := fun k => by
    rw [val_main_v2_apply, show lidx_main_v3 (ix2 r j) k = ix2 r k from by idx2,
      show idx_main_v2 (ridx_main_v3 (ix2 r j) k) = ix2 j k from by idx2]
  have e2 : idx_main_v4 (idx_main_v5 (ix2 r j)) = ix1 j := by idx1
  rw [val_main_v7_apply, val_main_v6_apply, val_main_v3_apply, val_main_v5_apply, val_main_v4_apply,
    val_main_call0_v0_apply, val_main_call0_cst_apply, Finset.sum_congr rfl (fun k _ => e1 k), e2]
  rfl

theorem hidden_fun (r : Fin 131072) :
    (fun j : Fin 256 => val_main_v7 (F := Ideal) x0 x1 x2 (ix2 r j))
      = RowSpec.hidden (fun k => val_main_v1 (F := Ideal) x0 (ix2 r k)) (fun k j => x1 (ix2 j k)) (fun j => x2 (ix1 j)) :=
  funext fun j => hidden_row x0 x1 x2 r j

/-! ## The gate pre-activations -/

/-- Row r of the gates: Σ_j h_r j · W_ih[n, j] + (b_ih n + b_hh n). -/
theorem gates_row (r : Fin 131072) (n : Fin 1024) :
    val_main_v13 (F := Ideal) x0 x1 x2 x3 x5 x6 (ix2 r n)
      = RowSpec.gates (fun j => val_main_v7 (F := Ideal) x0 x1 x2 (ix2 r j)) (fun j n => x3 (ix2 n j))
          (fun n => x5 (ix1 n) + x6 (ix1 n)) n := by
  have e1 : ∀ k : Fin 256,
      val_main_v7 (F := Ideal) x0 x1 x2 (lidx_main_v9 (ix2 r n) k) * val_main_v8 (F := Ideal) x3 (ridx_main_v9 (ix2 r n) k)
        = val_main_v7 (F := Ideal) x0 x1 x2 (ix2 r k) * x3 (ix2 n k) := fun k => by
    rw [val_main_v8_apply, show lidx_main_v9 (ix2 r n) k = ix2 r k from by idx2,
      show idx_main_v8 (ridx_main_v9 (ix2 r n) k) = ix2 n k from by idx2]
  have e2 : idx_main_v11 (idx_main_v12 (ix2 r n)) = ix1 n := by idx1
  rw [val_main_v13_apply, val_main_v9_apply, val_main_v12_apply, val_main_v11_apply, val_main_v10_apply,
    Finset.sum_congr rfl (fun k _ => e1 k), e2]
  rfl

theorem gates_fun (r : Fin 131072) :
    (fun n : Fin 1024 => val_main_v13 (F := Ideal) x0 x1 x2 x3 x5 x6 (ix2 r n))
      = RowSpec.gates (fun j => val_main_v7 (F := Ideal) x0 x1 x2 (ix2 r j)) (fun j n => x3 (ix2 n j))
          (fun n => x5 (ix1 n) + x6 (ix1 n)) :=
  funext fun n => gates_row x0 x1 x2 x3 x5 x6 r n

/-! ## The recurrent step from a zero state -/

/-- Row r of the step's rectified output. The program writes σ(x) as 1 / (1 + exp (-x)) with the word of 1. -/
theorem cell_row (r : Fin 131072) (j : Fin 256) :
    val_main_v34 (F := Ideal) x0 x1 x2 x3 x5 x6 (ix2 r j)
      = RowSpec.cell (fun n => val_main_v13 (F := Ideal) x0 x1 x2 x3 x5 x6 (ix2 r n)) j := by
  have i14 : idx_main_v14 (ix2 r j) = ix2 r (RowSpec.gateAt 0 (by decide) j) := by
    funext a
    match a with
    | ⟨0, _⟩ => rfl
    | ⟨1, _⟩ => exact Fin.ext (Nat.zero_add _).symm
  have i16 : idx_main_v16 (ix2 r j) = ix2 r (RowSpec.gateAt 512 (by decide) j) := by idx2
  have i17 : idx_main_v17 (ix2 r j) = ix2 r (RowSpec.gateAt 768 (by decide) j) := by idx2
  rw [val_main_v34_apply, val_main_v33_apply, val_main_v31_apply, val_main_v30_apply, val_main_cst_2_apply,
    val_main_v29_apply, val_main_v28_apply, val_main_cst_1_apply, val_main_v27_apply, val_main_v26_apply,
    val_main_v17_apply, i17, val_main_v32_apply, val_main_v25_apply, val_main_v23_apply, val_main_v22_apply,
    val_main_cst_0_apply, val_main_v21_apply, val_main_v20_apply, val_main_cst_apply, val_main_v19_apply,
    val_main_v18_apply, val_main_v14_apply, i14, val_main_v24_apply, val_main_v16_apply, i16,
    val_main_call1_v0_apply, val_main_call1_cst_apply]
  simp only [Ideal.maximumf_def, Ideal.mulf_def, Ideal.hostDivf_def, Ideal.ofBits_def, Ideal.addf_def,
    Ideal.hostUnary_exp_def, Ideal.hostNegf_def, Ideal.negf_def, Ideal.hostUnary_tanh_def, Ideal.ofBits_one_f32]
  rfl

theorem cell_fun (r : Fin 131072) :
    (fun j : Fin 256 => val_main_v34 (F := Ideal) x0 x1 x2 x3 x5 x6 (ix2 r j))
      = RowSpec.cell (fun n => val_main_v13 (F := Ideal) x0 x1 x2 x3 x5 x6 (ix2 r n)) :=
  funext fun j => cell_row x0 x1 x2 x3 x5 x6 r j

/-! ## The last dense layer -/

/-- Row r of the logits: Σ_j h_r j · W3[q, j] + b3 q. -/
theorem logits_row (r : Fin 131072) (q : Fin 32) :
    val_main_v39 (F := Ideal) x0 x1 x2 x3 x5 x6 x7 x8 (ix2 r q)
      = RowSpec.logits (fun j => val_main_v34 (F := Ideal) x0 x1 x2 x3 x5 x6 (ix2 r j)) (fun j q => x7 (ix2 q j))
          (fun q => x8 (ix1 q)) q := by
  have e1 : ∀ k : Fin 256,
      val_main_v34 (F := Ideal) x0 x1 x2 x3 x5 x6 (lidx_main_v36 (ix2 r q) k) * val_main_v35 (F := Ideal) x7 (ridx_main_v36 (ix2 r q) k)
        = val_main_v34 (F := Ideal) x0 x1 x2 x3 x5 x6 (ix2 r k) * x7 (ix2 q k) := fun k => by
    rw [val_main_v35_apply, show lidx_main_v36 (ix2 r q) k = ix2 r k from by idx2,
      show idx_main_v35 (ridx_main_v36 (ix2 r q) k) = ix2 q k from by idx2]
  have e2 : idx_main_v37 (idx_main_v38 (ix2 r q)) = ix1 q := by idx1
  rw [val_main_v39_apply, val_main_v36_apply, val_main_v38_apply, val_main_v37_apply,
    Finset.sum_congr rfl (fun k _ => e1 k), e2]
  rfl

theorem logits_fun (r : Fin 131072) :
    (fun q : Fin 32 => val_main_v39 (F := Ideal) x0 x1 x2 x3 x5 x6 x7 x8 (ix2 r q))
      = RowSpec.logits (fun j => val_main_v34 (F := Ideal) x0 x1 x2 x3 x5 x6 (ix2 r j)) (fun j q => x7 (ix2 q j))
          (fun q => x8 (ix1 q)) :=
  funext fun q => logits_row x0 x1 x2 x3 x5 x6 x7 x8 r q

/-! ## The row's maximum -/

/-- The maximum-reduction over the 32 classes, at row r: the fold of max from minus infinity over that row. The fold
    over the set of source indices that drop to r is the fold over the dropped axis's coordinates, and the source
    index over r with coordinate q inserted is (r, q). -/
theorem max_row (r : Fin 131072) :
    val_main_v40 (F := Ideal) x0 x1 x2 x3 x5 x6 x7 x8 (ix1 r)
      = (Finset.univ : Finset (Fin 32)).fold max RowSpec.negInf32
          (fun q => val_main_v39 (F := Ideal) x0 x1 x2 x3 x5 x6 x7 x8 (ix2 r q)) := by
  unfold val_main_v40
  have hR : S131072x32.Reduces [1] S131072 := by decide
  refine (Host.reduce_eq_fold_single (FloatOps.maximumf (F := Ideal) (φ := .f32)) _ _
    reducesTo_S131072x32_S131072_d1 hR h_S_ (ix1 r)).trans ?_
  have hi : ∀ q : Fin 32, hR.lift (ix1 r) q = ix2 r q := fun q => by
    funext a
    match a with
    | ⟨0, _⟩ => exact Fin.ext rfl
    | ⟨1, _⟩ => exact Fin.ext rfl
  have hf : ((val_main_v39 (F := Ideal) x0 x1 x2 x3 x5 x6 x7 x8) ∘ hR.lift (ix1 r))
      = fun q : Fin 32 => val_main_v39 (F := Ideal) x0 x1 x2 x3 x5 x6 x7 x8 (ix2 r q) := by
    funext q
    rw [Function.comp_apply, hi q]
  rw [hf, val_main_cst_3_apply, Ideal.ofBits_def]
  rfl

/-- ... and once more against minus infinity, as the program does. -/
theorem rowMax_row (r : Fin 131072) :
    val_main_v42 (F := Ideal) x0 x1 x2 x3 x5 x6 x7 x8 (ix1 r)
      = RowSpec.rowMax (fun q => val_main_v39 (F := Ideal) x0 x1 x2 x3 x5 x6 x7 x8 (ix2 r q)) := by
  rw [val_main_v42_apply, val_main_v41_apply, val_main_cst_4_apply, max_row]
  rfl

/-! ## The softmax -/

/-- Row r of the shifted exponentials: exp (l_r q − the row's maximum). -/
theorem exp_row (r : Fin 131072) (q : Fin 32) :
    val_main_v46 (F := Ideal) x0 x1 x2 x3 x5 x6 x7 x8 (ix2 r q)
      = Ideal.exp (val_main_v39 (F := Ideal) x0 x1 x2 x3 x5 x6 x7 x8 (ix2 r q)
          - RowSpec.rowMax (fun q => val_main_v39 (F := Ideal) x0 x1 x2 x3 x5 x6 x7 x8 (ix2 r q))) := by
  rw [val_main_v46_apply, val_main_v45_apply, val_main_v44_apply, val_main_v43_apply,
    show idx_main_v43 (idx_main_v44 (ix2 r q)) = ix1 r from by idx1, rowMax_row]
  rfl

/-- Row r of the softmax. The denominator is the word of zero plus the row's sum, and 0 + s = s. -/
theorem softmax_row (r : Fin 131072) (q : Fin 32) :
    val_main_v50 (F := Ideal) x0 x1 x2 x3 x5 x6 x7 x8 (ix2 r q)
      = RowSpec.softmax (fun q => val_main_v39 (F := Ideal) x0 x1 x2 x3 x5 x6 x7 x8 (ix2 r q)) q := by
  have e : ∀ k : Fin 32, val_main_v46 (F := Ideal) x0 x1 x2 x3 x5 x6 x7 x8 (idx_main_v47 (ix1 r) k)
      = Ideal.exp (val_main_v39 (F := Ideal) x0 x1 x2 x3 x5 x6 x7 x8 (ix2 r k)
          - RowSpec.rowMax (fun q => val_main_v39 (F := Ideal) x0 x1 x2 x3 x5 x6 x7 x8 (ix2 r q))) := fun k => by
    rw [show idx_main_v47 (ix1 r) k = ix2 r k from by idx2, exp_row]
  rw [val_main_v50_apply, val_main_v49_apply, val_main_v48_apply,
    show idx_main_v48 (idx_main_v49 (ix2 r q)) = ix1 r from by idx1, val_main_v47_apply, val_main_cst_5_apply,
    Finset.sum_congr rfl (fun k _ => e k), exp_row, Ideal.ofBits_def, Ideal.ofBits_zero_f32, zero_add]
  rfl

/-! ## One whole row -/

/-- Row r of the softmax is `RowSpec.rowOut` of row r of the reshaped input. -/
theorem rowOut_row (r : Fin 131072) (q : Fin 32) :
    val_main_v50 (F := Ideal) x0 x1 x2 x3 x5 x6 x7 x8 (ix2 r q)
      = RowSpec.rowOut (fun k => val_main_v1 (F := Ideal) x0 (ix2 r k)) (fun k j => x1 (ix2 j k)) (fun j => x2 (ix1 j))
          (fun j n => x3 (ix2 n j)) (fun n => x5 (ix1 n) + x6 (ix1 n)) (fun j q => x7 (ix2 q j)) (fun q => x8 (ix1 q)) q := by
  rw [softmax_row, logits_fun, cell_fun, gates_fun, hidden_fun]
  rfl

/-! ## The two layout ends -/

/-- Entry (p, q) of the result reads the softmax at row p * 2048 + 2047, class q: the reshape to [64, 2048, 32], the
    slice at position 2047 and the reshape to [64, 32] are row-major re-readings. -/
theorem out_idx (p : Fin 64) (q : Fin 32) :
    idx_main_v51 (idx_main_v52 (idx_main_v53 (ix2 p q))) = ix2 (lastRow p) q := by
  have hp := p.isLt
  have hq := q.isLt
  funext a
  match a with
  | ⟨0, _⟩ =>
    exact Fin.ext (by
      show (((p.val * 32 + q.val) / 32 * 2048 + (2047 + 0)) * 32 + (p.val * 32 + q.val) % 32) / 32 = p.val * 2048 + 2047
      omega)
  | ⟨1, _⟩ =>
    exact Fin.ext (by
      show (((p.val * 32 + q.val) / 32 * 2048 + (2047 + 0)) * 32 + (p.val * 32 + q.val) % 32) % 32 = q.val
      omega)

/-- Entry k of row p * 2048 + 2047 of the reshaped, transposed input is x[p, 15, k, 127]. -/
theorem in_idx (p : Fin 64) (k : Fin 512) :
    idx_main_v0 (idx_main_v1 (ix2 (lastRow p) k)) = ix4 p (15 : Fin 16) k (127 : Fin 128) := by
  have hp := p.isLt
  have hk := k.isLt
  funext a
  match a with
  | ⟨0, _⟩ => exact Fin.ext (by show ((p.val * 2048 + 2047) * 512 + k.val) / 1048576 = p.val; omega)
  | ⟨1, _⟩ => exact Fin.ext (by show ((p.val * 2048 + 2047) * 512 + k.val) / 65536 % 16 = 15; omega)
  | ⟨2, _⟩ => exact Fin.ext (by show ((p.val * 2048 + 2047) * 512 + k.val) % 512 = k.val; omega)
  | ⟨3, _⟩ => exact Fin.ext (by show ((p.val * 2048 + 2047) * 512 + k.val) / 512 % 128 = 127; omega)

theorem in_row (p : Fin 64) (k : Fin 512) :
    val_main_v1 (F := Ideal) x0 (ix2 (lastRow p) k) = x0 (ix4 p (15 : Fin 16) k (127 : Fin 128)) := by
  rw [val_main_v1_apply, val_main_v0_apply]
  exact congrArg x0 (in_idx p k)

end Rows

/-! ## The reference's result is the specification -/

open Cert.ReferenceIdeal in
theorem ref_eq (x0 : (⟨S64x16x512x128, .f32⟩ : BufTy).Contents (Elt Ideal)) (x1 : (⟨S256x512, .f32⟩ : BufTy).Contents (Elt Ideal)) (x2 : (⟨S256, .f32⟩ : BufTy).Contents (Elt Ideal)) (x3 : (⟨S1024x256, .f32⟩ : BufTy).Contents (Elt Ideal)) (x5 x6 : (⟨S1024, .f32⟩ : BufTy).Contents (Elt Ideal)) (x7 : (⟨S32x256, .f32⟩ : BufTy).Contents (Elt Ideal)) (x8 : (⟨S32, .f32⟩ : BufTy).Contents (Elt Ideal)) (i : S64x32.Idx) :
    Cert.ReferenceIdeal.Read.val_main_v53 (F := Ideal) x0 x1 x2 x3 x5 x6 x7 x8 i = Cert.RowSpec.G x0 x1 x2 x3 x5 x6 x7 x8 i := by
  obtain ⟨p, q, rfl⟩ : ∃ (p : Fin 64) (q : Fin 32), i = ix2 p q := ⟨i 0, i 1, eq_ix2 i⟩
  rw [val_main_v53_apply, val_main_v52_apply, val_main_v51_apply, out_idx p q, rowOut_row,
    show (fun k : Fin 512 => val_main_v1 (F := Ideal) x0 (ix2 (lastRow p) k))
        = fun k => x0 (ix4 p (15 : Fin 16) k (127 : Fin 128)) from funext (in_row x0 p)]
  rfl

end Cert.RefRow

end
-- ==== Proof.lean ====
/-
  The certificate of `Cert.Claim`: a fused dense → one-step LSTM → dense → softmax kernel against its jnp reference,
  equal on the extended reals.

  The reference flattens `x[p, m, :, b]` into 131072 rows of 512, runs every row through
      h1 = relu (row · W1ᵀ + b1),   gates = h1 · W_ihᵀ + (b_ih + b_hh),
      h  = relu (σ(o) · tanh (σ(i) · tanh g))   (one LSTM step from a zero state: the recurrent weights and the forget
                                                  gate never enter),
      out = softmax (h · W3ᵀ + b3),
  and keeps, per sample p, the last of its 2048 rows, which is m = 15, b = 127. The kernel slices out those 64 rows
  first and runs the same pipeline on them in one launch of one grid point. Since no operation mixes rows, both
  results are `RowSpec.G` of the arguments: entry (p, q) is class q of the row function at `x[p, 15, :, 127]`.
    * `KernelValue.run`: the kernel's run ends with its result array at `G` (the body read at a row in KernelRow.lean,
      a plain matrix product at an entry in LibPlainDot.lean);
    * `RefRow.ref_eq`: the reference's result term is `G` (each stage read at a generic row).
  The kernel narrows its product operands to bf16 and calls the logistic as one operation where the reference expands
  it to 1 / (1 + exp (−x)); on the extended reals a change of format is the identity and the logistic IS that
  expression, so the two sides agree operation for operation and the inputs' finiteness is never used.
  The frames of the two kernel programs are the generated ones; the reference's frame is its generated run with the
  result dropped; the idealization rewrote nothing, so `preserves` has no conjunct.
-/
import proofs.«160652_j39917426049717_1_alg».proof.Defs
import proofs.«160652_j39917426049717_1_alg».proof.Proof.Gen.Kernel
import proofs.«160652_j39917426049717_1_alg».proof.Proof.Gen.Kernel.Skeleton
import proofs.«160652_j39917426049717_1_alg».proof.Proof.Gen.Kernel.Launch
import proofs.«160652_j39917426049717_1_alg».proof.Proof.Gen.Kernel.Points
import proofs.«160652_j39917426049717_1_alg».proof.Proof.Gen.Kernel.Frame
import proofs.«160652_j39917426049717_1_alg».proof.Proof.Gen.KernelIdeal
import proofs.«160652_j39917426049717_1_alg».proof.Proof.Gen.KernelIdeal.Skeleton
import proofs.«160652_j39917426049717_1_alg».proof.Proof.Gen.KernelIdeal.Launch
import proofs.«160652_j39917426049717_1_alg».proof.Proof.Gen.KernelIdeal.Points
import proofs.«160652_j39917426049717_1_alg».proof.Proof.Gen.KernelIdeal.Frame
import proofs.«160652_j39917426049717_1_alg».proof.Proof.Gen.ReferenceIdeal
import proofs.«160652_j39917426049717_1_alg».proof.Proof.Gen.Pre_finite_inputs
import proofs.«160652_j39917426049717_1_alg».proof.Proof.Gen.KernelIdeal.Value
import proofs.«160652_j39917426049717_1_alg».proof.Proof.Gen.ReferenceIdeal.Run
import proofs.«160652_j39917426049717_1_alg».proof.Proof.Gen.ReferenceIdeal.Read
import proofs.«160652_j39917426049717_1_alg».proof.Proof.KernelValue
import proofs.«160652_j39917426049717_1_alg».proof.Proof.RefRow
import Idealize.ShloMosaic.Adequacy
import Idealize.ShloMosaic.Init

noncomputable section

namespace Cert.Proof

open Idealize.ShloMosaic Idealize.SL.Sem

/-- The kernel as printed runs and leaves its arguments unchanged: the generated frame. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result array at `RowSpec.G` of the
    arguments: the kernel by `KernelValue.run`, the reference by its run and `RefRow.ref_eq`. -/
theorem algebraic : Cert.algebraic_KernelIdeal_ReferenceIdeal := by
  intro m ρ m' ρ' _ hagree
  refine ⟨fun c => Cert.KernelValue.resultOf m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, -, h5, h6, h7, h8⟩ := hagree c
  rw [Cert.ReferenceIdeal.Read.val_main_v53_eq]
  funext i
  rw [Cert.RefRow.ref_eq, h0, h1, h2, h3, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
